-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S1x128 : Shape := ⟨2, ![1, 128]⟩
abbrev S1 : Shape := ⟨1, ![1]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S1x128 .f32) (main_arg3 : FVec F S1 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S1x128 : Shape := ⟨2, ![1, 128]⟩
abbrev S1 : Shape := ⟨1, ![1]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S128x1 : Shape := ⟨2, ![128, 1]⟩
abbrev S1x1 : Shape := ⟨2, ![1, 1]⟩
abbrev S50000x1 : Shape := ⟨2, ![50000, 1]⟩
abbrev S5000x128 : Shape := ⟨2, ![5000, 128]⟩
abbrev S5000x1 : Shape := ⟨2, ![5000, 1]⟩
abbrev S50000 : Shape := ⟨1, ![50000]⟩
abbrev S_ : Shape := ⟨0, ![]⟩
abbrev S800000x1 : Shape := ⟨2, ![800000, 1]⟩
abbrev S800000x128 : Shape := ⟨2, ![800000, 128]⟩

abbrev nBuf : Space → Nat
  | .hbm => 96
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S1x128, .f32⟩
  | .hbm, ⟨3, _⟩ => ⟨S1, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S128x1, .f32⟩
  | .hbm, ⟨11, _⟩ => ⟨S1x1, .f32⟩
  | .hbm, ⟨12, _⟩ => ⟨S128x128, .f32⟩
  | .hbm, ⟨13, _⟩ => ⟨S50000x1, .f32⟩
  | .hbm, ⟨14, _⟩ => ⟨S50000x128, .f32⟩
  | .hbm, ⟨15, _⟩ => ⟨S50000, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .f32⟩
  | .hbm, ⟨40, _⟩ => ⟨S800000, .f32⟩
  | .hbm, ⟨41, _⟩ => ⟨S_, .f32⟩
  | .hbm, ⟨42, _⟩ => ⟨S50000, .f32⟩
  | .hbm, ⟨43, _⟩ => ⟨S800000x1, .i32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .i1⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S_, .f32⟩
  | .hbm, ⟨52, _⟩ => ⟨S_, .f32⟩
  | .hbm, ⟨53, _⟩ => ⟨S50000, .f32⟩
  | .hbm, ⟨54, _⟩ => ⟨S50000, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000, .f32⟩
  | .hbm, ⟨64, _⟩ => ⟨S800000x1, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S800000x128, .f32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S50000x1, .f32⟩
  | .hbm, ⟨94, _⟩ => ⟨S1x128, .f32⟩
  | .hbm, ⟨95, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x1, .f32⟩
  | .local _ .vmem, ⟨3, _⟩ => ⟨S1x1, .f32⟩
  | .local _ .vmem, ⟨4, _⟩ => ⟨S128x128, .f32⟩
  | .local _ .vmem, ⟨5, _⟩ => ⟨S5000x1, .f32⟩
  | .local _ .vmem, ⟨6, _⟩ => ⟨S5000x1, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_call1_v0 : Ref sig .tc := ⟨.hbm, 52, rfl⟩
abbrev main_call1_v1 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_c_10 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_11 : Ref sig .tc := ⟨.hbm, 65, rfl⟩
abbrev main_v41 : Ref sig .tc := ⟨.hbm, 66, rfl⟩
abbrev main_v42 : Ref sig .tc := ⟨.hbm, 67, rfl⟩
abbrev main_c_12 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_14 : Ref sig .tc := ⟨.hbm, 80, rfl⟩
abbrev main_v53 : Ref sig .tc := ⟨.hbm, 81, rfl⟩
abbrev main_v54 : Ref sig .tc := ⟨.hbm, 82, rfl⟩
abbrev main_c_15 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_16 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S1x128_S128x1_1_0 : S1x128.Transposes [1, 0] S128x1
  shapeCasts_S1_S1x1 : S1.ShapeCasts S1x1
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S50000x1_S50000 : S50000x1.ShapeCasts S50000
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  shapeCasts_S5000x128_S5000x128 : S5000x128.ShapeCasts S5000x128
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x1_S5000x1_1_0_0_1_n_n_wf : DotDims.WF S5000x128 S128x1 S5000x1 [1] [0] [0] [1] [] []
  dot_S5000x128_S128x128_S5000x128_1_0_0_1_n_n_wf : DotDims.WF S5000x128 S128x128 S5000x128 [1] [0] [0] [1] [] []
  gather_S50000_S800000x1_S800000_n_0_n_n_0_1_1_wf : GatherDims.WF S50000 S800000x1 S800000 [] [0] [] [0] [] 1 ![1]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S128x1.size a
  hwx0_1 : ∀ i : grid0.Coords, EltTy.bits .f32 = 32 ∨ (Rect.block (s := S128x1) S128x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S50000x1.size a
  hwx0_4 : ∀ i : grid0.Coords, EltTy.bits .f32 = 32 ∨ (Rect.block (s := S50000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S5000x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v62) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v63) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v64) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S1x128 : Shape := ⟨2, ![1, 128]⟩
abbrev S1 : Shape := ⟨1, ![1]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S128x1 : Shape := ⟨2, ![128, 1]⟩
abbrev S50000x1 : Shape := ⟨2, ![50000, 1]⟩
abbrev S1x1 : Shape := ⟨2, ![1, 1]⟩
abbrev S_ : Shape := ⟨0, ![]⟩
abbrev S50000 : Shape := ⟨1, ![50000]⟩
abbrev S800000x1 : Shape := ⟨2, ![800000, 1]⟩
abbrev S800000x128 : Shape := ⟨2, ![800000, 128]⟩

abbrev nBuf : Space → Nat
  | .hbm => 109
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S1x128, .f32⟩
  | .hbm, ⟨3, _⟩ => ⟨S1, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S128x1, .f32⟩
  | .hbm, ⟨11, _⟩ => ⟨S50000x1, .f32⟩
  | .hbm, ⟨12, _⟩ => ⟨S1x1, .f32⟩
  | .hbm, ⟨13, _⟩ => ⟨S50000x1, .f32⟩
  | .hbm, ⟨14, _⟩ => ⟨S50000x1, .f32⟩
  | .hbm, ⟨15, _⟩ => ⟨S50000x1, .f32⟩
  | .hbm, ⟨16, _⟩ => ⟨S50000x1, .f32⟩
  | .hbm, ⟨17, _⟩ => ⟨S_, .f32⟩
  | .hbm, ⟨18, _⟩ => ⟨S50000x1, .f32⟩
  | .hbm, ⟨19, _⟩ => ⟨S50000x1, .f32⟩
  | .hbm, ⟨20, _⟩ => ⟨S_, .f32⟩
  | .hbm, ⟨21, _⟩ => ⟨S50000x1, .f32⟩
  | .hbm, ⟨22, _⟩ => ⟨S50000x1, .f32⟩
  | .hbm, ⟨23, _⟩ => ⟨S50000, .f32⟩
  | .hbm, ⟨24, _⟩ => ⟨S128x128, .f32⟩
  | .hbm, ⟨25, _⟩ => ⟨S50000x128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S_, .f32⟩
  | .hbm, ⟨36, _⟩ => ⟨S50000, .f32⟩
  | .hbm, ⟨37, _⟩ => ⟨S800000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .i1⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S_, .f32⟩
  | .hbm, ⟨46, _⟩ => ⟨S_, .f32⟩
  | .hbm, ⟨47, _⟩ => ⟨S50000, .f32⟩
  | .hbm, ⟨48, _⟩ => ⟨S50000, .f32⟩
  | .hbm, ⟨49, _⟩ => ⟨S_, .f32⟩
  | .hbm, ⟨50, _⟩ => ⟨S800000, .f32⟩
  | .hbm, ⟨51, _⟩ => ⟨S_, .f32⟩
  | .hbm, ⟨52, _⟩ => ⟨S50000, .f32⟩
  | .hbm, ⟨53, _⟩ => ⟨S800000x1, .i32⟩
  | .hbm, ⟨54, _⟩ => ⟨S50000, .f32⟩
  | .hbm, ⟨55, _⟩ => ⟨S_, .f32⟩
  | .hbm, ⟨56, _⟩ => ⟨S50000, .f32⟩
  | .hbm, ⟨57, _⟩ => ⟨S50000, .i1⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S_, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000, .f32⟩
  | .hbm, ⟨74, _⟩ => ⟨S800000x1, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x128, .f32⟩
  | .hbm, ⟨84, _⟩ => ⟨S800000x128, .f32⟩
  | .hbm, ⟨85, _⟩ => ⟨S800000x128, .f32⟩
  | .hbm, ⟨86, _⟩ => ⟨S_, .f32⟩
  | .hbm, ⟨87, _⟩ => ⟨S50000x128, .f32⟩
  | .hbm, ⟨88, _⟩ => ⟨S800000x1, .i32⟩
  | .hbm, ⟨89, _⟩ => ⟨S50000x128, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000x128, .f32⟩
  | .hbm, ⟨99, _⟩ => ⟨S_, .f32⟩
  | .hbm, ⟨100, _⟩ => ⟨S50000x128, .f32⟩
  | .hbm, ⟨101, _⟩ => ⟨S800000x1, .i32⟩
  | .hbm, ⟨102, _⟩ => ⟨S50000x128, .f32⟩
  | .hbm, ⟨103, _⟩ => ⟨S50000x1, .f32⟩
  | .hbm, ⟨104, _⟩ => ⟨S50000x128, .f32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_call0_v0 : Ref sig .tc := ⟨.hbm, 46, rfl⟩
abbrev main_call0_v1 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_call1_v0 : Ref sig .tc := ⟨.hbm, 62, rfl⟩
abbrev main_call1_v1 : Ref sig .tc := ⟨.hbm, 63, rfl⟩
abbrev main_v41 : Ref sig .tc := ⟨.hbm, 64, rfl⟩
abbrev main_c_11 : Ref sig .tc := ⟨.hbm, 65, rfl⟩
abbrev main_v42 : Ref sig .tc := ⟨.hbm, 66, rfl⟩
abbrev main_v43 : Ref sig .tc := ⟨.hbm, 67, rfl⟩
abbrev main_c_12 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c_13 : Ref sig .tc := ⟨.hbm, 75, rfl⟩
abbrev main_v50 : Ref sig .tc := ⟨.hbm, 76, rfl⟩
abbrev main_v51 : Ref sig .tc := ⟨.hbm, 77, rfl⟩
abbrev main_c_14 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_15 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_16 : Ref sig .tc := ⟨.hbm, 90, rfl⟩
abbrev main_v62 : Ref sig .tc := ⟨.hbm, 91, rfl⟩
abbrev main_v63 : Ref sig .tc := ⟨.hbm, 92, rfl⟩
abbrev main_c_17 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_18 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  transposes_S128x128_S128x128_1_0 : S128x128.Transposes [1, 0] S128x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x1_S50000x1_1_0_0_1_n_n_wf : DotDims.WF S50000x128 S128x1 S50000x1 [1] [0] [0] [1] [] []
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The pieces of a hypergraph convolution with attention weights, as functions of arrays.

  Inputs: node features x (50000 × 128), an incidence list hi (2 × 800000: row 0 node ids, row 1 hyperedge ids), an
  attention row a and offset b, a projection matrix L and a bias.
    w[v]      = σ(Σ_k x[v,k]·a[k] + b)                  the attention score of node v, used as hyperedge v's weight
    xl[v,j]   = Σ_k x[v,k]·L[j,k]                        the projected features
    D[v]      = Σ_{e : node(e)=v} w[edge(e)]            the weighted degree of node v;  Dinv = 1/D where D > 0, else 0
    B[h]      = #{e : edge(e)=h}                        the size of hyperedge h;        Binv = 1/B where B > 0, else 0
    ef[h,j]   = Σ_{e : edge(e)=h} Binv[h]·xl[node(e),j]  node → hyperedge
    raw[v,j]  = Σ_{e : node(e)=v} ef[edge(e),j]         hyperedge → node
    out[v,j]  = Dinv[v]·raw[v,j] + bias[j]
  Both programs compute D, B, ef and raw by the SAME gathers and scatter-adds of the incidence list (a negative id
  wraps once by 50000); those are carried here as named functions of w and xl (`dinvOf`, `rawOf`), never opened:
  the two programs differ only in how w, xl and the last line are computed.
-/
import proofs.«175398_j67147518705696_1_alg».proof.Proof.Gen.KernelIdeal
import Idealize.ShloMosaic.Lib.ValueIdx
import Idealize.ShloMosaic.PureOps.Ideal

noncomputable section

namespace Cert.Hyper

open Idealize.ShloMosaic Cert.KernelIdeal Cert.KernelIdeal.Gen

variable {F : FTy → Type} [FloatOps F]

/-! ## The shared irregular part, generic in the float family -/

/-- Row 0 of the incidence list: the node id of each of the 800000 incidences. -/
def nodeIds (hi : (⟨S2x800000, .i32⟩ : BufTy).Contents (Elt F)) : (⟨S800000, .i32⟩ : BufTy).Contents (Elt F) :=
  shapeCast _ (extractStridedSlice S1x800000 ![0, 0] hi slices_S2x800000_S1x800000_0_0) shapeCasts_S1x800000_S800000

/-- Row 1 of the incidence list: the hyperedge id of each incidence. -/
def edgeIds (hi : (⟨S2x800000, .i32⟩ : BufTy).Contents (Elt F)) : (⟨S800000, .i32⟩ : BufTy).Contents (Elt F) :=
  shapeCast _ (extractStridedSlice S1x800000 ![1, 0] hi slices_S2x800000_S1x800000_1_0) shapeCasts_S1x800000_S800000

/-- Ids as a column of gather indices, a negative id wrapped once by 50000. -/
def wrapCol (ids : (⟨S800000, .i32⟩ : BufTy).Contents (Elt F)) : (⟨S800000x1, .i32⟩ : BufTy).Contents (Elt F) :=
  broadcastInDim S800000x1 ![0] bcast_S800000_S800000x1_0
    (select (cmpi .slt ids (broadcastInDim S800000 ![] bcast_S_S800000 (constantI S_ 32 0#32)))
      (addi ids (broadcastInDim S800000 ![] bcast_S_S800000 (constantI S_ 32 50000#32))) ids)

/-- Ids as a column of scatter indices, as they are. -/
def col (ids : (⟨S800000, .i32⟩ : BufTy).Contents (Elt F)) : (⟨S800000x1, .i32⟩ : BufTy).Contents (Elt F) :=
  broadcastInDim S800000x1 ![0] bcast_S800000_S800000x1_0 ids

/-- `1/d` where `d > 0`, else `0`, entry by entry. -/
def invPos (d : (⟨S50000, .f32⟩ : BufTy).Contents (Elt F)) : (⟨S50000, .f32⟩ : BufTy).Contents (Elt F) :=
  select (cmpf (F := F) .ogt d (broadcastInDim S50000 ![] bcast_S_S50000 (constant S_ .f32 0x00000000#32)))
    (Host.divf (broadcastInDim S50000 ![] bcast_S_S50000 (constant S_ .f32 0x3F800000#32)) d)
    (broadcastInDim S50000 ![] bcast_S_S50000 (id (constant S_ .f32 0x00000000#32)))

/-- `Dinv`: the weights `w` gathered along the hyperedge ids and summed per node, inverted where positive. -/
def dinvOf (w : (⟨S50000, .f32⟩ : BufTy).Contents (Elt F)) (hi : (⟨S2x800000, .i32⟩ : BufTy).Contents (Elt F)) :
    (⟨S50000, .f32⟩ : BufTy).Contents (Elt F) :=
  invPos (Host.scatterAdd scatter_S50000_S800000x1_S800000_n_0_0_1
    (broadcastInDim S50000 ![] bcast_S_S50000 (constant S_ .f32 0x00000000#32)) (col (nodeIds hi))
    (Host.gather gather_S50000_S800000x1_S800000_n_0_n_n_0_1_1 w (wrapCol (edgeIds hi))))

/-- `Binv`: ones summed per hyperedge, inverted where positive. -/
def binvOf (hi : (⟨S2x800000, .i32⟩ : BufTy).Contents (Elt F)) : (⟨S50000, .f32⟩ : BufTy).Contents (Elt F) :=
  invPos (Host.scatterAdd scatter_S50000_S800000x1_S800000_n_0_0_1
    (broadcastInDim S50000 ![] bcast_S_S50000 (constant S_ .f32 0x00000000#32)) (col (edgeIds hi))
    (broadcastInDim S800000 ![] bcast_S_S800000 (constant S_ .f32 0x3F800000#32)))

/-- `ef`: per hyperedge, the sum over its incidences of `Binv` times the node's projected features. -/
def efeatOf (xl : (⟨S50000x128, .f32⟩ : BufTy).Contents (Elt F)) (hi : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (col (edgeIds hi))
    (mulf (broadcastInDim S800000x128 ![0, 1] bcast_S800000x1_S800000x128_0_1
        (broadcastInDim S800000x1 ![0] bcast_S800000_S800000x1_0
          (Host.gather gather_S50000_S800000x1_S800000_n_0_n_n_0_1_1 (binvOf hi) (wrapCol (edgeIds hi)))))
      (Host.gather gather_S50000x128_S800000x1_S800000x128_1_0_n_n_0_1_1128 xl (wrapCol (nodeIds hi))))

/-- `raw`: per node, the sum over its incidences of the hyperedge's features. -/
def rawOf (xl : (⟨S50000x128, .f32⟩ : BufTy).Contents (Elt F)) (hi : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (col (nodeIds hi))
    (Host.gather gather_S50000x128_S800000x1_S800000x128_1_0_n_n_0_1_1128 (efeatOf xl hi) (wrapCol (edgeIds hi)))

/-! ## The dense parts, index by index, on the extended reals -/

/-- The attention scores as a column: `σ(Σ_k x[v,k]·aT[k,0] + b[0,0])` over the transposed row `aT`. -/
def scoreCol (x : (⟨S50000x128, .f32⟩ : BufTy).Contents (Elt Ideal)) (aT : (⟨S128x1, .f32⟩ : BufTy).Contents (Elt Ideal))
    (b : (⟨S1x1, .f32⟩ : BufTy).Contents (Elt Ideal)) : (⟨S50000x1, .f32⟩ : BufTy).Contents (Elt Ideal) :=
  fun i => Ideal.logistic ((∑ k : Fin 128, x (ValueIdx.ix2 (i 0) k) * aT (ValueIdx.ix2 k (i 1))) + b (ValueIdx.ix2 0 0))

/-- The projected features: `Σ_k x[v,k]·LT[k,j]` over the transposed matrix `LT`. -/
def proj (x : (⟨S50000x128, .f32⟩ : BufTy).Contents (Elt Ideal)) (LT : (⟨S128x128, .f32⟩ : BufTy).Contents (Elt Ideal)) :
    (⟨S50000x128, .f32⟩ : BufTy).Contents (Elt Ideal) :=
  fun i => ∑ k : Fin 128, x (ValueIdx.ix2 (i 0) k) * LT (ValueIdx.ix2 k (i 1))

/-- The last line: `raw[v,j]·dcol[v,0] + brow[0,j]`. -/
def scaleShift (raw : (⟨S50000x128, .f32⟩ : BufTy).Contents (Elt Ideal)) (dcol : (⟨S50000x1, .f32⟩ : BufTy).Contents (Elt Ideal))
    (brow : (⟨S1x128, .f32⟩ : BufTy).Contents (Elt Ideal)) : (⟨S50000x128, .f32⟩ : BufTy).Contents (Elt Ideal) :=
  fun i => raw i * dcol (ValueIdx.ix2 (i 0) 0) + brow (ValueIdx.ix2 0 (i 1))

end Cert.Hyper

end
-- ==== Proof.HostValue.lean ====
/-
  What the host operations around the two kernel regions compute, read off the run's boundary contents.

  Before the first region the host transposes the attention row and the projection matrix and reshapes the offset; the
  node features are the argument itself. Between the regions it turns the first region's two results — the scores `w`
  (a 50000×1 column) and the projected features `xl` — into the second region's operands: `raw = rawOf xl hi`, the
  column of `Dinv = dinvOf w hi`, and the bias as a row. The gathers and scatter-adds are never opened: the boundary
  contents are matched against `Cert.Hyper`'s named functions operation by operation.
-/
import proofs.«175398_j67147518705696_1_alg».proof.Proof.Gen.KernelIdeal.Frame
import proofs.«175398_j67147518705696_1_alg».proof.Proof.Spec
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## Before the first region -/

/-- The first region finds the node features as launched. -/
theorem entry_x (c : Dev nD) : V1 m ρ c main_arg0 = m ((c.tc : Thread nD τ).loc main_arg0) := by
  show StableHlo.after hostOps0 (W0 m ρ c) (Proc.devRef .tc main_arg0) = _
  after_results

/-- … the attention row transposed to a column … -/
theorem entry_aT (c : Dev nD) :
    V1 m ρ c main_v4 = transpose S128x1 [1, 0] (m ((c.tc : Thread nD τ).loc main_arg2)) transposes_S1x128_S128x1_1_0 := by
  show StableHlo.after hostOps0 (W0 m ρ c) (Proc.devRef .tc main_v4) = _
  after_results

/-- … the offset as a 1×1 array … -/
theorem entry_b (c : Dev nD) :
    V1 m ρ c main_v5 = shapeCast S1x1 (m ((c.tc : Thread nD τ).loc main_arg3)) shapeCasts_S1_S1x1 := by
  show StableHlo.after hostOps0 (W0 m ρ c) (Proc.devRef .tc main_v5) = _
  after_results; rfl

/-- … and the projection matrix transposed. -/
theorem entry_LT (c : Dev nD) :
    V1 m ρ c main_v6 = transpose S128x128 [1, 0] (m ((c.tc : Thread nD τ).loc main_arg4)) transposes_S128x128_S128x128_1_0 := by
  show StableHlo.after hostOps0 (W0 m ρ c) (Proc.devRef .tc main_v6) = _
  after_results

/-! ## Between the regions -/

/-- The node ids the host sliced off the incidence list before the first region are still there after it. -/
theorem mid_nodeIds (c : Dev nD) :
    W2 m ρ c (Proc.devRef .tc main_v1) = Cert.Hyper.nodeIds (m ((c.tc : Thread nD τ).loc main_arg1)) := by
  rw [W2_of_ne m ρ c main_v1 (by decide)]
  show StableHlo.after hostOps0 (W0 m ρ c) (Proc.devRef .tc main_v1) = _
  after_results; rfl

/-- So are the hyperedge ids. -/
theorem mid_edgeIds (c : Dev nD) :
    W2 m ρ c (Proc.devRef .tc main_v3) = Cert.Hyper.edgeIds (m ((c.tc : Thread nD τ).loc main_arg1)) := by
  rw [W2_of_ne m ρ c main_v3 (by decide)]
  show StableHlo.after hostOps0 (W0 m ρ c) (Proc.devRef .tc main_v3) = _
  after_results; rfl

/-- And the bias, an argument no operation writes. -/
theorem mid_bias (c : Dev nD) :
    W2 m ρ c (Proc.devRef .tc main_arg5) = m ((c.tc : Thread nD τ).loc main_arg5) := by
  rw [W2_of_ne m ρ c main_arg5 (by decide)]
  show StableHlo.after hostOps0 (W0 m ρ c) (Proc.devRef .tc main_arg5) = _
  after_results

/-! ### The second region's operands -/

/-- The second region's first operand: `raw` of the first region's projected features. -/
theorem entry_raw (c : Dev nD) :
    V7 m ρ c main_v62 = Cert.Hyper.rawOf (W2 m ρ c (Proc.devRef .tc main_v7_1)) (m ((c.tc : Thread nD τ).loc main_arg1)) := by
  show StableHlo.after hostOps1_4 (StableHlo.after hostOps1_3 (StableHlo.after hostOps1_2 (StableHlo.after hostOps1_1
    (StableHlo.after hostOps1 (W2 m ρ c))))) (Proc.devRef .tc main_v62) = _
  simp only [hostOps1, hostOps1_1, hostOps1_2, hostOps1_3, hostOps1_4]
  after_results_simp
  rw [mid_nodeIds m ρ c, mid_edgeIds m ρ c]
  rfl

/-- Its second operand: `Dinv` of the first region's scores, as a column. -/
theorem entry_dcol (c : Dev nD) :
    V7 m ρ c main_v63 = shapeCast S50000x1 (Cert.Hyper.dinvOf
      (shapeCast S50000 (W2 m ρ c (Proc.devRef .tc main_v7_0)) shapeCasts_S50000x1_S50000)
      (m ((c.tc : Thread nD τ).loc main_arg1))) shapeCasts_S50000_S50000x1 := by
  show StableHlo.after hostOps1_4 (StableHlo.after hostOps1_3 (StableHlo.after hostOps1_2 (StableHlo.after hostOps1_1
    (StableHlo.after hostOps1 (W2 m ρ c))))) (Proc.devRef .tc main_v63) = _
  simp only [hostOps1, hostOps1_1, hostOps1_2, hostOps1_3, hostOps1_4]
  after_results_simp
  rw [mid_nodeIds m ρ c, mid_edgeIds m ρ c]
  rfl

/-- Its third operand: the bias as a row. -/
theorem entry_brow (c : Dev nD) :
    V7 m ρ c main_v64 = shapeCast S1x128 (m ((c.tc : Thread nD τ).loc main_arg5)) shapeCasts_S128_S1x128 := by
  show StableHlo.after hostOps1_4 (StableHlo.after hostOps1_3 (StableHlo.after hostOps1_2 (StableHlo.after hostOps1_1
    (StableHlo.after hostOps1 (W2 m ρ c))))) (Proc.devRef .tc main_v64) = _
  simp only [hostOps1, hostOps1_1, hostOps1_2, hostOps1_3, hostOps1_4]
  after_results_simp
  rw [mid_bias m ρ c]
  rfl

end Cert.KernelIdeal.HostValue

end
-- ==== Proof.Answer.lean ====
/-
  The whole computation as one function of the six arguments: the scores and the projected features from the dense
  products (the attention row and the projection matrix transposed, the offset as a 1×1 array), the irregular sums
  `rawOf` and `dinvOf` over the incidence list, and the last line `raw·Dinv + bias` with `Dinv` as a column and the
  bias as a row.
-/
import proofs.«175398_j67147518705696_1_alg».proof.Proof.Spec

noncomputable section

namespace Cert.Hyper

open Idealize.ShloMosaic Cert.KernelIdeal Cert.KernelIdeal.Gen

/-- `out[v,j] = raw[v,j]·Dinv[v] + bias[j]`. -/
def answer (x : (⟨S50000x128, .f32⟩ : BufTy).Contents (Elt Ideal)) (hi : (⟨S2x800000, .i32⟩ : BufTy).Contents (Elt Ideal))
    (a : (⟨S1x128, .f32⟩ : BufTy).Contents (Elt Ideal)) (b : (⟨S1, .f32⟩ : BufTy).Contents (Elt Ideal))
    (L : (⟨S128x128, .f32⟩ : BufTy).Contents (Elt Ideal)) (bias : (⟨S128, .f32⟩ : BufTy).Contents (Elt Ideal)) :
    (⟨S50000x128, .f32⟩ : BufTy).Contents (Elt Ideal) :=
  scaleShift
    (rawOf (proj x (transpose S128x128 [1, 0] L transposes_S128x128_S128x128_1_0)) hi)
    (shapeCast S50000x1
      (dinvOf (shapeCast S50000
        (scoreCol x (transpose S128x1 [1, 0] a transposes_S1x128_S128x1_1_0) (shapeCast S1x1 b shapeCasts_S1_S1x1))
        shapeCasts_S50000x1_S50000) hi)
      shapeCasts_S50000_S50000x1)
    (shapeCast S1x128 bias shapeCasts_S128_S1x128)

end Cert.Hyper

end
-- ==== Proof.FusedValue.lean ====
import proofs.«175398_j67147518705696_1_alg».proof.Proof.Gen.KernelIdeal.Frame
import proofs.«175398_j67147518705696_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FusedValue

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

/-! ## The two contractions, read at an index

Both products contract the second axis of the left operand with the first axis of the right one: the entry
`(p, q)` of the product is `Σ_k left[p,k] · right[k,q]`. The four coordinate facts below say, for each
product, where the left and the right operand are read for the output index `i` and the contraction index `q`. -/

theorem lhs_score_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
theorem lhs_score_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
theorem rhs_score_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
theorem rhs_score_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- The product of a 5000×128 block with a 128×1 column, into the zero accumulator, at `(p, q)`. -/
theorem score_matmul_apply (a : FVec Ideal S5000x128 .bf16) (b : FVec Ideal S128x1 .bf16) (p : Fin 5000) (q : Fin 1) :
    matmul (F := Ideal) dot_S5000x128_S128x1_S5000x1_1_0_0_1_n_n none a b (constant (F := Ideal) S5000x1 .f32 0x00000000#32) (ValueIdx.ix2 p q)
      = ∑ k : Fin 128, a (ValueIdx.ix2 p k) * b (ValueIdx.ix2 k q) := by
  simp only [matmul]
  rw [Ideal.matmul_constant_zero_apply, ← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx (ValueIdx.ix2 p q) ((ValueIdx.contrEquiv1 dot_S5000x128_S128x1_S5000x1_1_0_0_1_n_n 128 rfl rfl).symm k) = ValueIdx.ix2 p k := funext fun a => Fin.ext (by
    match a with
    | ⟨0, _⟩ => exact lhs_score_0 _ _
    | ⟨1, _⟩ => exact (lhs_score_1 _ _).trans hk)
  have er : dot_S5000x128_S128x1_S5000x1_1_0_0_1_n_n.rhsIdx (ValueIdx.ix2 p q) ((ValueIdx.contrEquiv1 dot_S5000x128_S128x1_S5000x1_1_0_0_1_n_n 128 rfl rfl).symm k) = ValueIdx.ix2 k q := funext fun a => Fin.ext (by
    match a with
    | ⟨0, _⟩ => exact (rhs_score_0 _ _).trans hk
    | ⟨1, _⟩ => exact rhs_score_1 _ _)
  rw [el, er]

theorem lhs_proj_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_proj_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_proj_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_proj_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a 5000×128 block with a 128×128 matrix, into the zero accumulator, at `(p, q)`. -/
theorem proj_matmul_apply (a : FVec Ideal S5000x128 .bf16) (b : FVec Ideal S128x128 .bf16) (p : Fin 5000) (q : Fin 128) :
    matmul (F := Ideal) dot_S5000x128_S128x128_S5000x128_1_0_0_1_n_n none a b (constant (F := Ideal) S5000x128 .f32 0x00000000#32) (ValueIdx.ix2 p q)
      = ∑ k : Fin 128, a (ValueIdx.ix2 p k) * b (ValueIdx.ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact lhs_proj_0 _ _
    | ⟨1, _⟩ => exact (lhs_proj_1 _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (rhs_proj_0 _ _).trans hk
    | ⟨1, _⟩ => exact rhs_proj_1 _ _)
  rw [el, er]

/-! ## The body's two stored values, read at an index

The body rounds its operands to a narrower format (the identity on the extended reals), multiplies the
5000×128 block of `x` by the 128×1 column and by the 128×128 matrix, adds the 1×1 offset to every entry of
the first product and applies the logistic function to it. -/

/-- The score block at `(p, q)`: `σ(Σ_k x[p,k]·a[k,q] + b[0,0])`. -/
theorem score_block_apply (x0 : Vec Ideal S5000x128 .f32) (x1 : Vec Ideal S128x1 .f32) (x2 : Vec Ideal S1x1 .f32) (p : Fin 5000) (q : Fin 1) :
    (k0_pay3 (F := Ideal) x0 x1 x2 : Vec Ideal S5000x1 .f32) (ValueIdx.ix2 p q)
      = Ideal.logistic ((∑ k : Fin 128, x0 (ValueIdx.ix2 p k) * x1 (ValueIdx.ix2 k q)) + x2 (ValueIdx.ix2 0 0)) := by
  unfold k0_pay3 k0_pay1
  simp only [shapeCast_self]
  show Ideal.logistic (_ + _) = _
  rw [score_matmul_apply, broadcastTo_apply x2 broadcasts_S1x1_S5000x1 (ValueIdx.ix2 p q) (ValueIdx.ix2 0 0) (fun a => match a with
    | ⟨0, _⟩ => by show (0 : ℕ) = if (1 : ℕ) = 1 then 0 else _; rw [if_pos rfl]
    | ⟨1, _⟩ => by show (0 : ℕ) = if (1 : ℕ) = 1 then 0 else _; rw [if_pos rfl])]
  rfl

/-- The projected block at `(p, q)`: `Σ_k x[p,k]·L[k,q]`. -/
theorem proj_block_apply (x0 : Vec Ideal S5000x128 .f32) (x3 : Vec Ideal S128x128 .f32) (p : Fin 5000) (q : Fin 128) :
    (k0_pay2 (F := Ideal) x0 x3 : Vec Ideal S5000x128 .f32) (ValueIdx.ix2 p q)
      = ∑ k : Fin 128, x0 (ValueIdx.ix2 p k) * x3 (ValueIdx.ix2 k q) := by
  unfold k0_pay2 k0_pay1
  simp only [shapeCast_self]
  rw [proj_matmul_apply]
  rfl

/-! ## From blocks to arrays

The grid has ten points. At point `t` the window of `x` and the two output windows hold rows
`5000·t … 5000·t + 4999` of their arrays (block index `(t, 0)`); the column, the offset and the matrix are
whole arrays at every point (block index `(0, 0)`). So the score block at point `t` is rows
`5000·t …` of `scoreCol`, the projected block is the same rows of `proj`, and the ten blocks tile the 50000 rows. -/

theorem zero_offsets : (![0, 0] : Fin 2 → Nat) = fun _ => 0 := funext fun a => by fin_cases a <;> rfl

/-- The block index of every window at every point of the grid. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Block `t` of `x` at `(p, k)` is `x[5000·t + p, k]`. -/
theorem x_block_apply (c : Dev nD) (t : Fin cfg0.N) (p : Fin 5000) (k : Fin 128) (i : S50000x128.Idx)
    (h0 : (i 0).val = 5000 * t.val + p.val) (h1 : (i 1).val = k.val) :
    (iblk0 V c 0 t : Vec Ideal S5000x128 .f32) (ValueIdx.ix2 p k) = V c main_arg0 i := by
  obtain ⟨e0, e1, -⟩ := block_indices t
  show V c main_arg0 (((cfg0.win 0).blk t).view.emb (ValueIdx.ix2 p k)) = V c main_arg0 i
  refine congrArg _ (funext fun a => Fin.ext ?_)
  match a with
  | ⟨0, _⟩ => show win0_0.index t (0 : Fin 2) * 5000 + 1 * p.val = (i 0).val; omega
  | ⟨1, _⟩ => show win0_0.index t (1 : Fin 2) * 128 + 1 * k.val = (i 1).val; omega

/-- The column's block at every point is the column. -/
theorem col_block_apply (c : Dev nD) (t : Fin cfg0.N) (k : Fin 128) (q : Fin 1) (i : S128x1.Idx)
    (h0 : (i 0).val = k.val) (h1 : (i 1).val = q.val) :
    (iblk0 V c 1 t : Vec Ideal S128x1 .f32) (ValueIdx.ix2 k q) = V c main_v4 i := by
  obtain ⟨-, -, e0, e1, -⟩ := block_indices t
  show V c main_v4 (((cfg0.win 1).blk t).view.emb (ValueIdx.ix2 k q)) = V c main_v4 i
  refine congrArg _ (funext fun a => Fin.ext ?_)
  match a with
  | ⟨0, _⟩ => show win0_1.index t (0 : Fin 2) * 128 + 1 * k.val = (i 0).val; omega
  | ⟨1, _⟩ => show win0_1.index t (1 : Fin 2) * 1 + 1 * q.val = (i 1).val; omega

/-- The offset's block at every point is the offset. -/
theorem offset_block_apply (c : Dev nD) (t : Fin cfg0.N) :
    (iblk0 V c 2 t : Vec Ideal S1x1 .f32) (ValueIdx.ix2 0 0) = V c main_v5 (ValueIdx.ix2 0 0) := by
  obtain ⟨-, -, -, -, e0, e1, -⟩ := block_indices t
  show V c main_v5 (((cfg0.win 2).blk t).view.emb (ValueIdx.ix2 0 0)) = V c main_v5 (ValueIdx.ix2 0 0)
  refine congrArg _ (funext fun a => Fin.ext ?_)
  match a with
  | ⟨0, _⟩ => show win0_2.index t (0 : Fin 2) * 1 + 1 * 0 = 0; omega
  | ⟨1, _⟩ => show win0_2.index t (1 : Fin 2) * 1 + 1 * 0 = 0; omega

/-- The matrix's block at every point is the matrix. -/
theorem mat_block_apply (c : Dev nD) (t : Fin cfg0.N) (k : Fin 128) (q : Fin 128) (i : S128x128.Idx)
    (h0 : (i 0).val = k.val) (h1 : (i 1).val = q.val) :
    (iblk0 V c 3 t : Vec Ideal S128x128 .f32) (ValueIdx.ix2 k q) = V c main_v6 i := by
  obtain ⟨-, -, -, -, -, -, e0, e1, -⟩ := block_indices t
  show V c main_v6 (((cfg0.win 3).blk t).view.emb (ValueIdx.ix2 k q)) = V c main_v6 i
  refine congrArg _ (funext fun a => Fin.ext ?_)
  match a with
  | ⟨0, _⟩ => show win0_3.index t (0 : Fin 2) * 128 + 1 * k.val = (i 0).val; omega
  | ⟨1, _⟩ => show win0_3.index t (1 : Fin 2) * 128 + 1 * q.val = (i 1).val; omega

/-- What point `t` writes back to the score array is block `t` of `scoreCol`: entry `(p, q)` of the block is
    `σ(Σ_k x[5000·t + p, k]·a[k, q] + b[0,0])`, and the block sits at rows `5000·t …` of the array. -/
theorem flushed_scores (c : Dev nD) (t : Fin cfg0.N) :
    (dat0 (F := Ideal) V c).flushed 4 t
      = ((cfg0.win 4).blk t).view.read (Elt Ideal) (Cert.Hyper.scoreCol (V c main_arg0) (V c main_v4) (V c main_v5)) := by
  show (cfg0.win 4).cut (grid0.coords t) ((dat0 V c).after 4 t) = _
  rw [after0_4]
  unfold out0_4
  rw [View.canon_unit_zero zero_offsets]
  simp only [View.ld_unit_zero (S := S5000x128) zero_offsets, View.ld_unit_zero (S := S128x1) zero_offsets,
    View.ld_unit_zero (S := S1x1) zero_offsets]
  obtain ⟨-, -, -, -, -, -, -, -, e0, e1, -⟩ := block_indices t
  funext j
  have hp : (j 0).val < 5000 := (j 0).isLt
  have hq : (j 1).val < 1 := (j 1).isLt
  have hx : (cfg0.win 4).xinj (grid0.coords t) j = ValueIdx.ix2 (⟨(j 0).val, hp⟩ : Fin 5000) (⟨(j 1).val, hq⟩ : Fin 1) :=
    funext fun a => match a with | ⟨0, _⟩ => rfl | ⟨1, _⟩ => rfl
  show (k0_pay3 (F := Ideal) (iblk0 V c 0 t) (iblk0 V c 1 t) (iblk0 V c 2 t) : Vec Ideal S5000x1 .f32) ((cfg0.win 4).xinj (grid0.coords t) j)
    = Cert.Hyper.scoreCol (V c main_arg0) (V c main_v4) (V c main_v5) (((cfg0.win 4).blk t).view.emb j)
  rw [hx, score_block_apply]
  unfold Cert.Hyper.scoreCol
  refine congrArg Ideal.logistic (congrArg₂ (· + ·) (Finset.sum_congr rfl fun k _ => congrArg₂ (· * ·) ?_ ?_) ?_)
  · refine x_block_apply V c t _ k _ ?_ rfl
    show win0_4.index t (0 : Fin 2) * 5000 + 1 * (j 0).val = 5000 * t.val + (j 0).val
    omega
  · refine col_block_apply V c t k _ _ rfl ?_
    show win0_4.index t (1 : Fin 2) * 1 + 1 * (j 1).val = (j 1).val
    omega
  · exact offset_block_apply V c t

/-- What point `t` writes back to the projected array is block `t` of `proj`: entry `(p, q)` of the block is
    `Σ_k x[5000·t + p, k]·L[k, q]`, and the block sits at rows `5000·t …` of the array. -/
theorem flushed_projected (c : Dev nD) (t : Fin cfg0.N) :
    (dat0 (F := Ideal) V c).flushed 5 t
      = ((cfg0.win 5).blk t).view.read (Elt Ideal) (Cert.Hyper.proj (V c main_arg0) (V c main_v6)) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets]
  obtain ⟨-, -, -, -, -, -, -, -, -, -, e0, e1⟩ := block_indices t
  funext j
  have hp : (j 0).val < 5000 := (j 0).isLt
  have hq : (j 1).val < 128 := (j 1).isLt
  have hx : (cfg0.win 5).xinj (grid0.coords t) j = ValueIdx.ix2 (⟨(j 0).val, hp⟩ : Fin 5000) (⟨(j 1).val, hq⟩ : Fin 128) :=
    funext fun a => match a with | ⟨0, _⟩ => rfl | ⟨1, _⟩ => rfl
  show (k0_pay2 (F := Ideal) (iblk0 V c 0 t) (iblk0 V c 3 t) : Vec Ideal S5000x128 .f32) ((cfg0.win 5).xinj (grid0.coords t) j)
    = Cert.Hyper.proj (V c main_arg0) (V c main_v6) (((cfg0.win 5).blk t).view.emb j)
  rw [hx, proj_block_apply]
  unfold Cert.Hyper.proj
  refine Finset.sum_congr rfl fun k _ => congrArg₂ (· * ·) ?_ ?_
  · refine x_block_apply V c t _ k _ ?_ rfl
    show win0_5.index t (0 : Fin 2) * 5000 + 1 * (j 0).val = 5000 * t.val + (j 0).val
    omega
  · refine mat_block_apply V c t k _ _ rfl ?_
    show win0_5.index t (1 : Fin 2) * 128 + 1 * (j 1).val = (j 1).val
    omega

/-- A row of the score array is in point `t`'s block iff each coordinate is in the block's range on its axis. -/
theorem mem_score_block (t : Fin cfg0.N) (i : S50000x1.Idx) :
    i ∈ ((cfg0.win 4).blk t).view.set ↔ ∀ a : Fin 2, win0_4.index t a * S5000x1.size a ≤ (i a).val ∧ (i a).val < win0_4.index t a * S5000x1.size a + S5000x1.size a := by
  show i ∈ ((View.whole main_v7_0).slice (win0_4.rect t)).set ↔ _
  rw [View.set_slice_whole, Rect.mem_set_unit]
  exact Iff.rfl

/-- An entry of the projected array is in point `t`'s block iff each coordinate is in the block's range on its axis. -/
theorem mem_projected_block (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v7_1).slice (win0_5.rect t)).set ↔ _
  rw [View.set_slice_whole, Rect.mem_set_unit]
  exact Iff.rfl

/-- Row `r` of the score array is in the block of point `r / 5000`. -/
theorem score_cover (i : S50000x1.Idx) :
    ∃ t : Fin cfg0.N, (cfg0.win 4).flush t = true ∧ i ∈ ((cfg0.win 4).blk t).view.set := by
  have hi0 : (i 0).val < 50000 := (i 0).isLt
  have hi1 : (i 1).val < 1 := (i 1).isLt
  have hN : grid0.N = 10 := N_0
  have ht : (i 0).val / 5000 < grid0.N := by rw [hN]; omega
  obtain ⟨-, -, -, -, -, -, -, -, e0, e1, -⟩ := block_indices ⟨(i 0).val / 5000, ht⟩
  refine ⟨⟨(i 0).val / 5000, ht⟩, flush0_4 _, ?_⟩
  rw [mem_score_block]
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, ht⟩ (1 : Fin 2) * 1 ≤ (i 1).val ∧ (i 1).val < win0_4.index ⟨(i 0).val / 5000, ht⟩ (1 : Fin 2) * 1 + 1
    rw [e1]; omega

/-- Entry `(r, j)` of the projected array is in the block of point `r / 5000`. -/
theorem projected_cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 10 := N_0
  have ht : (i 0).val / 5000 < grid0.N := by rw [hN]; omega
  obtain ⟨-, -, -, -, -, -, -, -, -, -, e0, e1⟩ := block_indices ⟨(i 0).val / 5000, ht⟩
  refine ⟨⟨(i 0).val / 5000, ht⟩, flush0_5 _, ?_⟩
  rw [mem_projected_block]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e1]; omega

/-- The score array after the ten points: `scoreCol` of `x`, the column and the offset as the region finds them. -/
theorem scores (c : Dev nD) :
    (dat0 (F := Ideal) V c).arrAt 4 cfg0.N = Cert.Hyper.scoreCol (V c main_arg0) (V c main_v4) (V c main_v5) :=
  (dat0 (F := Ideal) V c).arrAt_eq_of_cover 4 (Cert.Hyper.scoreCol (V c main_arg0) (V c main_v4) (V c main_v5))
    (fun t _ => flushed_scores V c t) score_cover

/-- The projected array after the ten points: `proj` of `x` and the matrix as the region finds them. -/
theorem projected (c : Dev nD) :
    (dat0 (F := Ideal) V c).arrAt 5 cfg0.N = Cert.Hyper.proj (V c main_arg0) (V c main_v6) :=
  (dat0 (F := Ideal) V c).arrAt_eq_of_cover 5 (Cert.Hyper.proj (V c main_arg0) (V c main_v6))
    (fun t _ => flushed_projected V c t) projected_cover

end Cert.KernelIdeal.FusedValue

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.NormValue.lean ====
import proofs.«175398_j67147518705696_1_alg».proof.Proof.Gen.KernelIdeal.Frame
import proofs.«175398_j67147518705696_1_alg».proof.Proof.Spec
import proofs.«175398_j67147518705696_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NormValue

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

open Idealize.ShloMosaic.ValueIdx

/-! ## The last line of the convolution, block by block

The 50000 rows of the result are cut into ten blocks of 5000 rows; grid point `t` computes rows
`5000·t … 5000·t + 4999`. Entry `(p, q)` of that block is `raw[5000·t + p, q] · dcol[5000·t + p, 0] + brow[0, q]`:
it depends on one entry of the raw block, on the column's entry of its own row, and on the row's entry of its own
lane. The ten blocks cover every row, so the whole array ends holding `raw[v, j] · dcol[v, 0] + brow[0, j]`. -/

/-- The zero offsets of a rank-2 rectangle are the constant function zero. -/
theorem zero_offsets : (![0, 0] : Fin 2 → Nat) = fun _ => 0 := funext fun a => by fin_cases a <;> rfl

/-- The body's arithmetic at entry `(p, q)` of a 5000 × 128 block: the raw entry, times the column's entry of row `p`
    (the column is repeated along the 128 lanes), plus the row's entry of lane `q` (the row is repeated along the 5000
    rows); the shape casts are between equal shapes and change nothing. -/
theorem pay_apply (x0 : Vec Ideal S5000x128 .f32) (x1 : Vec Ideal S5000x1 .f32) (x2 : Vec Ideal S1x128 .f32)
    (p : Fin 5000) (q : Fin 128) :
    k1_pay1 x0 x1 x2 (ix2 p q) = x0 (ix2 p q) * x1 (ix2 p (0 : Fin 1)) + x2 (ix2 (0 : Fin 1) q) := by
  unfold k1_pay1
  simp only [shapeCast_self]
  rw [addf_apply, mulf_apply, Cert.LibKeepdims.broadcastTo_a1_ab_apply, broadcastTo_1b_ab_apply]

/-- One entry of a block's result from the three entries it depends on, each given as an entry of a whole array: the raw
    entry at the array index `i`, the column's entry of row `i 0`, the row's entry of lane `i 1`. -/
theorem block_entry (A0 : S50000x128.Idx → Elt Ideal .f32) (A1 : S50000x1.Idx → Elt Ideal .f32) (A2 : S1x128.Idx → Elt Ideal .f32)
    (x0 : Vec Ideal S5000x128 .f32) (x1 : Vec Ideal S5000x1 .f32) (x2 : Vec Ideal S1x128 .f32)
    (p : Fin 5000) (q : Fin 128) (i : S50000x128.Idx)
    (h0 : x0 (ix2 p q) = A0 i) (h1 : x1 (ix2 p (0 : Fin 1)) = A1 (ix2 (i 0) (0 : Fin 1)))
    (h2 : x2 (ix2 (0 : Fin 1) q) = A2 (ix2 (0 : Fin 1) (i 1))) :
    k1_pay1 x0 x1 x2 (ix2 p q) = Cert.Hyper.scaleShift A0 A1 A2 i := by
  rw [pay_apply, h0, h1, h2]
  rfl

/-- The block indices at grid point `t`: the raw array, the column and the result are taken at block `(t, 0)` — block `t`
    along the rows —, the row whole, at block `(0, 0)`. Checked at each of the ten points. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point `t` writes back is block `t` of `scaleShift` of the three arrays as the region finds them. Entry
    `(p, q)` of a block sits in its array at block index × block size + the coordinate inside the block; the raw block and
    the result block have the same block index, the column's block has the same row index and its one lane, the row's
    block is the row itself. -/
theorem flushed_eq (c : Dev nD) (t : Fin cfg1.N) :
    (dat1 (F := Ideal) V c).flushed 3 t
      = ((cfg1.win 3).blk t).view.read (Elt Ideal) (Cert.Hyper.scaleShift (V c main_v62) (V c main_v63) (V c main_v64)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S5000x1) zero_offsets,
    View.ld_unit_zero (S := S1x128) zero_offsets]
  obtain ⟨e00, e01, e10, e11, e20, e21, e30, e31⟩ := index_maps t
  funext j
  -- the block's index `j` from its two coordinates
  have hj : (cfg1.win 3).xinj (grid1.coords t) j
      = ix2 (⟨(j 0).val, (j 0).isLt⟩ : Fin 5000) (⟨(j 1).val, (j 1).isLt⟩ : Fin 128) := by
    funext a
    match a with
    | ⟨0, _⟩ => rfl
    | ⟨1, _⟩ => rfl
  show k1_pay1 (F := Ideal) _ _ _ ((cfg1.win 3).xinj (grid1.coords t) j)
    = Cert.Hyper.scaleShift _ _ _ (((cfg1.win 3).blk t).view.emb j)
  rw [hj]
  refine block_entry _ _ _ _ _ _ _ _ _ ?_ ?_ ?_
  · -- the raw entry: same block index, same coordinates inside the block
    show V c main_v62 (((cfg1.win 0).blk t).view.emb (ix2 _ _)) = V c main_v62 _
    refine congrArg (V c main_v62) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  · -- the column's entry: the same row of the array, lane 0
    show V c main_v63 (((cfg1.win 1).blk t).view.emb (ix2 _ _)) = V c main_v63 _
    refine congrArg (V c main_v63) (funext fun a => Fin.ext ?_)
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  · -- the row's entry: row 0, the same lane
    show V c main_v64 (((cfg1.win 2).blk t).view.emb (ix2 _ _)) = V c main_v64 _
    refine congrArg (V c main_v64) (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega

/-- An index of the result array lies in grid point `t`'s block iff, on each axis, its coordinate is in the block's range
    `[block index × block size, block index × block size + block size)`. -/
theorem mem_blk (t : Fin cfg1.N) (i : S50000x128.Idx) :
    i ∈ ((cfg1.win 3).blk t).view.set ↔
      ∀ a : Fin 2, win1_3.index t a * S5000x128.size a ≤ (i a).val
        ∧ (i a).val < win1_3.index t a * S5000x128.size a + S5000x128.size a := by
  show i ∈ ((View.whole main_v65).slice (win1_3.rect t)).set ↔ _
  rw [View.set_slice_whole, Rect.mem_set_unit]
  exact Iff.rfl

/-- The ten blocks cover the array: row `r < 50000` lies in the block of grid point `r / 5000 < 10`, whose rows are
    `5000·(r / 5000) … 5000·(r / 5000) + 4999`; every block holds all 128 lanes. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 :=
    ⟨⟨(i 0).val / 5000, by show (i 0).val / 5000 < grid1.N; rw [hN]; omega⟩, rfl⟩
  obtain ⟨-, -, -, -, -, -, e30, e31⟩ := index_maps t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-! ## The array after the run

Every grid point writes back block `t` of `scaleShift`, and the blocks cover the array: it ends holding `scaleShift`. -/

theorem result (c : Dev nD) :
    (dat1 (F := Ideal) V c).arrAt 3 cfg1.N = Cert.Hyper.scaleShift (V c main_v62) (V c main_v63) (V c main_v64) := by
  exact (dat1 (F := Ideal) V c).arrAt_eq_of_cover 3 _ (fun t _ => flushed_eq V c t) cover

end Cert.KernelIdeal.NormValue

end
-- ==== Proof.KValue.lean ====
/-
  The kernel program's result array, as `Cert.Hyper.answer` of the arguments.

  The run ends with the result array at what the second region's write-backs leave: `raw·dcol + brow` of that region's
  entry contents. Those are `rawOf`, the column of `dinvOf` and the bias row of what the first region left — the scores
  `σ(x·aᵀ + b)` and the projected features `x·Lᵀ` of ITS entry contents, which the host made from the arguments by two
  transposes and a reshape.
-/
import proofs.«175398_j67147518705696_1_alg».proof.Proof.KRun
import proofs.«175398_j67147518705696_1_alg».proof.Proof.HostValue
import proofs.«175398_j67147518705696_1_alg».proof.Proof.Answer
import proofs.«175398_j67147518705696_1_alg».proof.Proof.FusedValue
import proofs.«175398_j67147518705696_1_alg».proof.Proof.NormValue

set_option maxRecDepth 16384

noncomputable section

namespace Cert.KernelIdeal.KValue

open Idealize.ShloMosaic Idealize.ShloMosaic.TcCoe Idealize.SL.Sem
open Cert.KernelIdeal Cert.KernelIdeal.Gen Cert.KernelIdeal.HostValue

variable (m : (ℓ : Loc nD τ sig) → Buf (Elt Ideal) ℓ) (ρ : Dev nD → PrngReg)

/-- The last boundary's contents at the result array: `answer` of the launch contents of the six arguments. -/
theorem result (c : Dev nD) :
    W8 m ρ c (Proc.devRef .tc main_v65)
      = Cert.Hyper.answer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  have hout : W8 m ρ c (Proc.devRef .tc main_v65) = (dat1 (F := Ideal) (V7 m ρ) c).arrAt 3 cfg1.N := W8_arr m ρ c 3
  have hxl : W2 m ρ c (Proc.devRef .tc main_v7_1) = (dat0 (F := Ideal) (V1 m ρ) c).arrAt 5 cfg0.N := W2_arr m ρ c 5
  have hw : W2 m ρ c (Proc.devRef .tc main_v7_0) = (dat0 (F := Ideal) (V1 m ρ) c).arrAt 4 cfg0.N := W2_arr m ρ c 4
  rw [hout, Cert.KernelIdeal.NormValue.result (V7 m ρ) c, entry_raw m ρ c, entry_dcol m ρ c, entry_brow m ρ c, hxl, hw,
    Cert.KernelIdeal.FusedValue.projected (V1 m ρ) c, Cert.KernelIdeal.FusedValue.scores (V1 m ρ) c,
    entry_x m ρ c, entry_aT m ρ c, entry_b m ρ c, entry_LT m ρ c]
  rfl

/-- The kernel program's run with its result named. -/
theorem run : θ_run (Cert.KernelIdeal.defs (F := Ideal)) (onTc (τ := τ) (main (F := Ideal))) ⟨m, fun _ => 0, ρ⟩ (fun r => ∀ c : Dev nD,
      r.2.mem ((c.tc : Thread nD τ).loc main_v65)
        = Cert.Hyper.answer (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (Cert.KernelIdeal.defs (F := Ideal)) _ _).mono (fun _ h c => ⟨(h c).1.trans (result m ρ c), (h c).2⟩)
    (Cert.KernelIdeal.GenRun.run (F := Ideal) m ρ)

end Cert.KernelIdeal.KValue

end
-- ==== Proof.RefValue.lean ====
/-
  The reference at the extended reals, as the named pieces of a hypergraph convolution.

  The reference computes the scores as `1 / (1 + e^(−z))` of `z = Σ_k x[v,k]·a[k] + b`, which is `σ(z)` on every
  extended real (the quotient's and the exponential's corners are the logistic's: `−∞ ↦ 0`, `+∞ ↦ 1`); the projected
  features as `Σ_k x[v,k]·L[j,k]`; `Dinv` and `raw` by the shared gathers and scatter-adds, matched against
  `Cert.Hyper`'s named functions without opening them; and the result as `Dinv[v]·raw[v,j] + bias[j]`.
-/
import proofs.«175398_j67147518705696_1_alg».proof.Proof.RefRead
import proofs.«175398_j67147518705696_1_alg».proof.Proof.Spec
import proofs.«175398_j67147518705696_1_alg».proof.Proof.Answer
import proofs.«175398_j67147518705696_1_alg».proof.Proof.LibKeepdims
import Idealize.ShloMosaic.Lib.ValueIdx
import Idealize.ShloMosaic.Lib.IdealHost
import Idealize.ShloMosaic.Lib.Pipeline.Value

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.ReadP

/-! ## The shared irregular part: the reference's stages ARE the named functions (any float family) -/

section Generic
variable {F : FTy → Type} [FloatOps F]

/-- The reference's hyperedge → node sum is `rawOf` of its projected features. -/
theorem raw_eq (x0 : (⟨S50000x128, .f32⟩ : BufTy).Contents (Elt F)) (x1 : (⟨S2x800000, .i32⟩ : BufTy).Contents (Elt F))
    (x4 : (⟨S128x128, .f32⟩ : BufTy).Contents (Elt F)) :
    val_main_v71 (F := F) x0 x1 x4 = Cert.Hyper.rawOf (val_main_v17 (F := F) x0 x4) x1 := rfl

/-- The reference's inverted node degree is `dinvOf` of its scores, flattened. -/
theorem dinv_eq (x0 : (⟨S50000x128, .f32⟩ : BufTy).Contents (Elt F)) (x1 : (⟨S2x800000, .i32⟩ : BufTy).Contents (Elt F))
    (x2 : (⟨S1x128, .f32⟩ : BufTy).Contents (Elt F)) (x3 : (⟨S1, .f32⟩ : BufTy).Contents (Elt F)) :
    val_main_v32 (F := F) x0 x1 x2 x3
      = Cert.Hyper.dinvOf (shapeCast Cert.KernelIdeal.S50000 (val_main_v14 (F := F) x0 x2 x3)
          Cert.KernelIdeal.Gen.shapeCasts_S50000x1_S50000) x1 := rfl

end Generic

/-! ## The dense parts, index by index -/

/-- The reference's scores: `1 / (1 + e^(−z))` is the logistic of `z`, entry by entry. -/
theorem score_eq (x0 : (⟨S50000x128, .f32⟩ : BufTy).Contents (Elt Ideal)) (x2 : (⟨S1x128, .f32⟩ : BufTy).Contents (Elt Ideal)) (x3 : (⟨S1, .f32⟩ : BufTy).Contents (Elt Ideal)) :
    val_main_v14 (F := Ideal) x0 x2 x3
      = Cert.Hyper.scoreCol x0 (val_main_v4 (F := Ideal) x2) (shapeCast Cert.KernelIdeal.S1x1 x3 Cert.KernelIdeal.Gen.shapeCasts_S1_S1x1) := by
  funext i
  have el : ∀ k : Fin 128, lidx_main_v5 i k = ValueIdx.ix2 (i 0) k := fun k => funext fun a => by
    match a with
    | ⟨0, _⟩ => rfl
    | ⟨1, _⟩ => rfl
  have er : ∀ k : Fin 128, ridx_main_v5 i k = ValueIdx.ix2 k (i 1) := fun k => funext fun a => by
    match a with
    | ⟨0, _⟩ => rfl
    | ⟨1, _⟩ => rfl
  have eb : shapeCast Cert.KernelIdeal.S1x1 x3 Cert.KernelIdeal.Gen.shapeCasts_S1_S1x1 (ValueIdx.ix2 0 0)
      = x3 (idx_main_v6 (idx_main_v7 i)) :=
    (Cert.LibKeepdims.shapeCast_a_a1_apply (a := 1) x3 _ 0 0).trans (congrArg x3 (funext fun a => by
      match a with
      | ⟨0, _⟩ => rfl))
  rw [val_main_v14_apply, val_main_v13_apply, val_main_cst_0_apply, val_main_v12_apply, val_main_v11_apply,
    val_main_cst_apply, val_main_v10_apply, val_main_v9_apply, val_main_v8_apply, val_main_v5_apply, val_main_v7_apply,
    val_main_v6_apply]
  unfold Cert.Hyper.scoreCol
  rw [eb]
  simp only [el, er, Ideal.hostDivf_def, Ideal.addf_def, Ideal.hostUnary_exp_def, Ideal.hostNegf_def, Ideal.negf_def,
    Ideal.ofBits_def, Ideal.ofBits_one_f32]
  rfl

/-- The reference's projected features: the product with the transposed matrix, entry by entry. -/
theorem proj_eq (x0 : (⟨S50000x128, .f32⟩ : BufTy).Contents (Elt Ideal)) (x4 : (⟨S128x128, .f32⟩ : BufTy).Contents (Elt Ideal)) :
    val_main_v17 (F := Ideal) x0 x4 = Cert.Hyper.proj x0 (val_main_v16 (F := Ideal) x4) := by
  funext i
  have el : ∀ k : Fin 128, lidx_main_v17 i k = ValueIdx.ix2 (i 0) k := fun k => funext fun a => by
    match a with
    | ⟨0, _⟩ => rfl
    | ⟨1, _⟩ => rfl
  have er : ∀ k : Fin 128, ridx_main_v17 i k = ValueIdx.ix2 k (i 1) := fun k => funext fun a => by
    match a with
    | ⟨0, _⟩ => rfl
    | ⟨1, _⟩ => rfl
  rw [val_main_v17_apply]
  unfold Cert.Hyper.proj
  simp only [el, er]
  rfl

/-- The reference's result at an index: `Dinv[v]·raw[v,j] + bias[j]`. -/
theorem result_apply (x0 : (⟨S50000x128, .f32⟩ : BufTy).Contents (Elt Ideal)) (x1 : (⟨S2x800000, .i32⟩ : BufTy).Contents (Elt Ideal)) (x2 : (⟨S1x128, .f32⟩ : BufTy).Contents (Elt Ideal))
    (x3 : (⟨S1, .f32⟩ : BufTy).Contents (Elt Ideal)) (x4 : (⟨S128x128, .f32⟩ : BufTy).Contents (Elt Ideal)) (x5 : (⟨S128, .f32⟩ : BufTy).Contents (Elt Ideal)) (i : S50000x128.Idx) :
    val_main_v77 (F := Ideal) x0 x1 x2 x3 x4 x5 i
      = val_main_v32 (F := Ideal) x0 x1 x2 x3 (ValueIdx.ix1 (i 0)) * val_main_v71 (F := Ideal) x0 x1 x4 i + x5 (ValueIdx.ix1 (i 1)) := by
  have e1 : idx_main_v72 (idx_main_v73 i) = ValueIdx.ix1 (i 0) := funext fun a => by
    match a with
    | ⟨0, _⟩ => rfl
  have e2 : idx_main_v75 (idx_main_v76 i) = ValueIdx.ix1 (i 1) := funext fun a => by
    match a with
    | ⟨0, _⟩ => rfl
  rw [val_main_v77_apply, val_main_v74_apply, val_main_v73_apply, val_main_v72_apply, val_main_v76_apply,
    val_main_v75_apply, e1, e2]
  rfl

/-! ## The reference computes `answer` -/

/-- A vector of length 128 cast to a 1×128 row reads, at `(0, j)`, the vector at `j`. -/
theorem row_apply (x5 : (⟨S128, .f32⟩ : BufTy).Contents (Elt Ideal)) (j : Fin 128) :
    shapeCast Cert.KernelIdeal.S1x128 x5 Cert.KernelIdeal.Gen.shapeCasts_S128_S1x128 (ValueIdx.ix2 0 j) = x5 (ValueIdx.ix1 j) :=
  shapeCast_apply x5 _ _ _ (by
    rw [Shape.rowMajor_val_two, Shape.rowMajor_val_one]
    show j.val = 0 * 128 + j.val
    omega)

/-- The reference's result is `answer` of its arguments: its `Dinv[v]·raw[v,j]` is `raw[v,j]·Dinv[v]` (products of extended
    reals commute), the column and the row read back at their one coordinate. -/
theorem answer_eq (x0 : (⟨S50000x128, .f32⟩ : BufTy).Contents (Elt Ideal)) (x1 : (⟨S2x800000, .i32⟩ : BufTy).Contents (Elt Ideal)) (x2 : (⟨S1x128, .f32⟩ : BufTy).Contents (Elt Ideal))
    (x3 : (⟨S1, .f32⟩ : BufTy).Contents (Elt Ideal)) (x4 : (⟨S128x128, .f32⟩ : BufTy).Contents (Elt Ideal)) (x5 : (⟨S128, .f32⟩ : BufTy).Contents (Elt Ideal)) :
    val_main_v77 (F := Ideal) x0 x1 x2 x3 x4 x5 = Cert.Hyper.answer x0 x1 x2 x3 x4 x5 := by
  funext i
  rw [result_apply, dinv_eq, raw_eq, score_eq, proj_eq]
  unfold Cert.Hyper.answer Cert.Hyper.scaleShift
  show Cert.Hyper.dinvOf (shapeCast Cert.KernelIdeal.S50000
        (Cert.Hyper.scoreCol x0 (transpose Cert.KernelIdeal.S128x1 [1, 0] x2 Cert.KernelIdeal.Gen.transposes_S1x128_S128x1_1_0)
          (shapeCast Cert.KernelIdeal.S1x1 x3 Cert.KernelIdeal.Gen.shapeCasts_S1_S1x1))
        Cert.KernelIdeal.Gen.shapeCasts_S50000x1_S50000) x1 (ValueIdx.ix1 (i 0))
      * Cert.Hyper.rawOf (Cert.Hyper.proj x0 (transpose Cert.KernelIdeal.S128x128 [1, 0] x4 Cert.KernelIdeal.Gen.transposes_S128x128_S128x128_1_0)) x1 i
      + x5 (ValueIdx.ix1 (i 1)) = _
  generalize Cert.Hyper.dinvOf _ x1 = D
  generalize Cert.Hyper.rawOf _ x1 = R
  rw [(Cert.ReferenceIdeal.RefValue.row_apply x5 (i 1)),
    Cert.LibKeepdims.shapeCast_a_a1_apply (a := 50000) D Cert.KernelIdeal.Gen.shapeCasts_S50000_S50000x1 (i 0) 0]
  rw [mul_comm]

end Cert.ReferenceIdeal.RefValue

end
-- ==== Proof.lean ====
/-
  A hypergraph convolution with attention weights: the kernel program against its reference, over the extended reals.

  Both programs compute `out[v,j] = Dinv[v]·raw[v,j] + bias[j]` from the node features `x`, an incidence list, an
  attention row and offset, a projection matrix and a bias (`Cert.Hyper`, Proof/Spec.lean, spells the pieces). They share
  the irregular part — the gathers and scatter-adds along the incidence list that make `Dinv` from the scores and
  `raw` from the projected features — operation for operation, and differ in three places: the kernel's first region
  computes the scores as `σ(x·aᵀ + b)` in one logistic and the projected features as `x·Lᵀ`, in 10 row blocks of 5000,
  where the reference spells `1 / (1 + e^(−z))` and takes whole products; and the kernel's second region forms
  `raw·Dinv + bias` block by block where the reference forms `Dinv·raw + bias`. On the extended reals the logistic IS
  that quotient (corners included), a change of float format is the identity, a blocked product is the whole one, and
  products commute: no finiteness is needed, and the precondition is never opened.

  The frames of the two kernel programs are the generated ones; the reference's is its run with the result dropped;
  the idealization rewrote nothing, so `preserves` asks nothing.
-/
import proofs.«175398_j67147518705696_1_alg».proof.Defs
import proofs.«175398_j67147518705696_1_alg».proof.Proof.Gen.Kernel
import proofs.«175398_j67147518705696_1_alg».proof.Proof.Gen.Kernel.Skeleton
import proofs.«175398_j67147518705696_1_alg».proof.Proof.Gen.Kernel.Launch
import proofs.«175398_j67147518705696_1_alg».proof.Proof.Gen.Kernel.Points
import proofs.«175398_j67147518705696_1_alg».proof.Proof.Gen.Kernel.Frame
import proofs.«175398_j67147518705696_1_alg».proof.Proof.Gen.KernelIdeal
import proofs.«175398_j67147518705696_1_alg».proof.Proof.Gen.KernelIdeal.Skeleton
import proofs.«175398_j67147518705696_1_alg».proof.Proof.Gen.KernelIdeal.Launch
import proofs.«175398_j67147518705696_1_alg».proof.Proof.Gen.KernelIdeal.Points
import proofs.«175398_j67147518705696_1_alg».proof.Proof.Gen.KernelIdeal.Frame
import proofs.«175398_j67147518705696_1_alg».proof.Proof.Gen.ReferenceIdeal
import proofs.«175398_j67147518705696_1_alg».proof.Proof.Gen.Pre_finite_inputs
import proofs.«175398_j67147518705696_1_alg».proof.Proof.KValue
import proofs.«175398_j67147518705696_1_alg».proof.Proof.RefValue
import Idealize.ShloMosaic.Adequacy
import Idealize.ShloMosaic.Init

noncomputable section

namespace Cert.Proof

open Idealize.ShloMosaic Idealize.SL.Sem

/-- The printed kernel program terminates without a fault, its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the six arguments both programs end with the result at `answer` of those arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v77_eq, (hagree c).1, (hagree c).2.1, (hagree c).2.2.1, (hagree c).2.2.2.1,
    (hagree c).2.2.2.2.1, (hagree c).2.2.2.2.2]
  exact Cert.ReferenceIdeal.RefValue.answer_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
